-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x273x3000 : Shape := ⟨3, ![64, 273, 3000]⟩
abbrev S64x273x2 : Shape := ⟨3, ![64, 273, 2]⟩
abbrev S2 : Shape := ⟨1, ![2]⟩
abbrev S100x2 : Shape := ⟨2, ![100, 2]⟩
abbrev S_ : Shape := ⟨0, ![]⟩

class Facts : Prop where
  bcast_S_S64x273x3000 : S_.BroadcastsInDim S64x273x3000 (![] : Fin 0 → Fin S64x273x3000.rank)
  reducesTo_S64x273x3000_S_d0_1_2 : S64x273x3000.ReducesTo [0, 1, 2] S_
  h_S_ : 0 < S_.numel
  bcast_S_S64x273x2 : S_.BroadcastsInDim S64x273x2 (![] : Fin 0 → Fin S64x273x2.rank)
  reducesTo_S64x273x2_S_d0_1_2 : S64x273x2.ReducesTo [0, 1, 2] S_
  bcast_S_S2 : S_.BroadcastsInDim S2 (![] : Fin 0 → Fin S2.rank)
  reducesTo_S2_S_d0 : S2.ReducesTo [0] S_
  bcast_S_S100x2 : S_.BroadcastsInDim S100x2 (![] : Fin 0 → Fin S100x2.rank)
  reducesTo_S100x2_S_d0_1 : S100x2.ReducesTo [0, 1] S_

variable [Facts]

def fn_part1 {F : FTy → Type} [FloatOps F] (main_v13 : IVec S_ 1) (main_v16 : IVec S100x2 1) : IVec S_ 1 :=
  let main_c_5 : IVec S_ 1 := constantI S_ 1 1#1
  let main_v17 : IVec S_ 1 := (fun x v => Host.reduce IntOp.andi x v reducesTo_S100x2_S_d0_1 h_S_) main_v16 main_c_5
  let main_v18 : IVec S_ 1 := andi main_v13 main_v17
  main_v18

def fn {F : FTy → Type} [FloatOps F] (main_arg0 : FVec F S64x273x3000 .f32) (main_arg1 : FVec F S64x273x2 .f32) (main_arg2 : FVec F S2 .f32) (main_arg3 : FVec F S100x2 .f32) : IVec S_ 1 :=
  let main_v0 : FVec F S64x273x3000 .f32 := Host.absf main_arg0
  let main_cst : FVec F S_ .f32 := constant S_ .f32 0x7F800000#32
  let main_v1 : FVec F S64x273x3000 .f32 := broadcastInDim S64x273x3000 ![] bcast_S_S64x273x3000 main_cst
  let main_v2 : IVec S64x273x3000 1 := cmpf .olt main_v0 main_v1
  let main_c : IVec S_ 1 := constantI S_ 1 1#1
  let main_v3 : IVec S_ 1 := (fun x v => Host.reduce IntOp.andi x v reducesTo_S64x273x3000_S_d0_1_2 h_S_) main_v2 main_c
  let main_v4 : FVec F S64x273x2 .f32 := Host.absf main_arg1
  let main_cst_0 : FVec F S_ .f32 := constant S_ .f32 0x7F800000#32
  let main_v5 : FVec F S64x273x2 .f32 := broadcastInDim S64x273x2 ![] bcast_S_S64x273x2 main_cst_0
  let main_v6 : IVec S64x273x2 1 := cmpf .olt main_v4 main_v5
  let main_c_1 : IVec S_ 1 := constantI S_ 1 1#1
  let main_v7 : IVec S_ 1 := (fun x v => Host.reduce IntOp.andi x v reducesTo_S64x273x2_S_d0_1_2 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S100x2 .f32 := Host.absf main_arg3
  let main_cst_4 : FVec F S_ .f32 := constant S_ .f32 0x7F800000#32
  let main_v15 : FVec F S100x2 .f32 := broadcastInDim S100x2 ![] bcast_S_S100x2 main_cst_4
  let main_v16 : IVec S100x2 1 := cmpf .olt main_v14 main_v15
  fn_part1 (F := F) main_v13 main_v16
-- ==== Kernel.lean ====
abbrev S64x273x3000 : Shape := ⟨3, ![64, 273, 3000]⟩
abbrev S64x273x2 : Shape := ⟨3, ![64, 273, 2]⟩
abbrev S2 : Shape := ⟨1, ![2]⟩
abbrev S100x2 : Shape := ⟨2, ![100, 2]⟩
abbrev S1x1x2 : Shape := ⟨3, ![1, 1, 2]⟩
abbrev S_ : Shape := ⟨0, ![]⟩
abbrev S64x273 : Shape := ⟨2, ![64, 273]⟩
abbrev S1x64x273x2 : Shape := ⟨4, ![1, 64, 273, 2]⟩
abbrev S100x1x1x2 : Shape := ⟨4, ![100, 1, 1, 2]⟩
abbrev S100x64x273x2 : Shape := ⟨4, ![100, 64, 273, 2]⟩
abbrev S100x64x273 : Shape := ⟨3, ![100, 64, 273]⟩
abbrev S64x273x1 : Shape := ⟨3, ![64, 273, 1]⟩
abbrev S1x273x3000 : Shape := ⟨3, ![1, 273, 3000]⟩
abbrev S1x273x1 : Shape := ⟨3, ![1, 273, 1]⟩

abbrev nBuf : Space → Nat
  | .hbm => 39
  | .vmem => 6
  | .smem => 0
  | _ => 0

abbrev bufTy : (tb : Table) → Fin (tcTables nBuf tb) → BufTy
  | .hbm, ⟨0, _⟩ => ⟨S64x273x3000, .f32⟩
  | .hbm, ⟨1, _⟩ => ⟨S64x273x2, .f32⟩
  | .hbm, ⟨2, _⟩ => ⟨S2, .f32⟩
  | .hbm, ⟨3, _⟩ => ⟨S100x2, .f32⟩
  | .hbm, ⟨4, _⟩ => ⟨S1x1x2, .f32⟩
  | .hbm, ⟨5, _⟩ => ⟨S64x273x2, .f32⟩
  | .hbm, ⟨6, _⟩ => ⟨S64x273x2, .f32⟩
  | .hbm, ⟨7, _⟩ => ⟨S64x273x2, .f32⟩
  | .hbm, ⟨8, _⟩ => ⟨S_, .f32⟩
  | .hbm, ⟨9, _⟩ => ⟨S64x273, .f32⟩
  | .hbm, ⟨10, _⟩ => ⟨S64x273, .f32⟩
  | .hbm, ⟨11, _⟩ => ⟨S_, .f32⟩
  | .hbm, ⟨12, _⟩ => ⟨S64x273, .f32⟩
  | .hbm, ⟨13, _⟩ => ⟨S64x273, .i1⟩
  | .hbm, ⟨14, _⟩ => ⟨S1x64x273x2, .f32⟩
  | .hbm, ⟨15, _⟩ => ⟨S100x1x1x2, .f32⟩
  | .hbm, ⟨16, _⟩ => ⟨S100x64x273x2, .f32⟩
  | .hbm, ⟨17, _⟩ => ⟨S100x64x273x2, .f32⟩
  | .hbm, ⟨18, _⟩ => ⟨S100x64x273x2, .f32⟩
  | .hbm, ⟨19, _⟩ => ⟨S100x64x273x2, .f32⟩
  | .hbm, ⟨20, _⟩ => ⟨S_, .f32⟩
  | .hbm, ⟨21, _⟩ => ⟨S100x64x273, .f32⟩
  | .hbm, ⟨22, _⟩ => ⟨S100x64x273, .f32⟩
  | .hbm, ⟨23, _⟩ => ⟨S_, .f32⟩
  | .hbm, ⟨24, _⟩ => ⟨S100x64x273, .f32⟩
  | .hbm, ⟨25, _⟩ => ⟨S100x64x273, .i1⟩
  | .hbm, ⟨26, _⟩ => ⟨S100x64x273, .f32⟩
  | .hbm, ⟨27, _⟩ => ⟨S_, .f32⟩
  | .hbm, ⟨28, _⟩ => ⟨S64x273, .f32⟩
  | .hbm, ⟨29, _⟩ => ⟨S_, .f32⟩
  | .hbm, ⟨30, _⟩ => ⟨S64x273, .f32⟩
  | .hbm, ⟨31, _⟩ => ⟨S64x273, .f32⟩
  | .hbm, ⟨32, _⟩ => ⟨S64x273, .f32⟩
  | .hbm, ⟨33, _⟩ => ⟨S_, .f32⟩
  | .hbm, ⟨34, _⟩ => ⟨S64x273, .f32⟩
  | .hbm, ⟨35, _⟩ => ⟨S64x273, .f32⟩
  | .hbm, ⟨36, _⟩ => ⟨S64x273, .f32⟩
  | .hbm, ⟨37, _⟩ => ⟨S64x273x1, .f32⟩
  | .hbm, ⟨38, _⟩ => ⟨S64x273x3000, .f32⟩
  | .local _ .vmem, ⟨0, _⟩ => ⟨S1x273x3000, .f32⟩
  | .local _ .vmem, ⟨1, _⟩ => ⟨S1x273x3000, .f32⟩
  | .local _ .vmem, ⟨2, _⟩ => ⟨S1x273x1, .f32⟩
  | .local _ .vmem, ⟨3, _⟩ => ⟨S1x273x1, .f32⟩
  | .local _ .vmem, ⟨4, _⟩ => ⟨S1x273x3000, .f32⟩
  | .local _ .vmem, ⟨5, _⟩ => ⟨S1x273x3000, .f32⟩
  | _, _ => ⟨S64x273x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x273x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x273x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x273x3000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S2_S1x1x2_2 : S2.BroadcastsInDim S1x1x2 (![2] : Fin 1 → Fin S1x1x2.rank)
  bcast_S1x1x2_S64x273x2_0_1_2 : S1x1x2.BroadcastsInDim S64x273x2 (![0, 1, 2] : Fin 3 → Fin S64x273x2.rank)
  reducesTo_S64x273x2_S64x273_d2 : S64x273x2.ReducesTo [2] S64x273
  h_S_ : 0 < S_.numel
  bcast_S_S64x273 : S_.BroadcastsInDim S64x273 (![] : Fin 0 → Fin S64x273.rank)
  bcast_S64x273x2_S1x64x273x2_1_2_3 : S64x273x2.BroadcastsInDim S1x64x273x2 (![1, 2, 3] : Fin 3 → Fin S1x64x273x2.rank)
  bcast_S100x2_S100x1x1x2_0_3 : S100x2.BroadcastsInDim S100x1x1x2 (![0, 3] : Fin 2 → Fin S100x1x1x2.rank)
  bcast_S1x64x273x2_S100x64x273x2_0_1_2_3 : S1x64x273x2.BroadcastsInDim S100x64x273x2 (![0, 1, 2, 3] : Fin 4 → Fin S100x64x273x2.rank)
  bcast_S100x1x1x2_S100x64x273x2_0_1_2_3 : S100x1x1x2.BroadcastsInDim S100x64x273x2 (![0, 1, 2, 3] : Fin 4 → Fin S100x64x273x2.rank)
  reducesTo_S100x64x273x2_S100x64x273_d3 : S100x64x273x2.ReducesTo [3] S100x64x273
  bcast_S_S100x64x273 : S_.BroadcastsInDim S100x64x273 (![] : Fin 0 → Fin S100x64x273.rank)
  reducesTo_S100x64x273_S64x273_d0 : S100x64x273.ReducesTo [0] S64x273
  bcast_S64x273_S64x273x1_0_1 : S64x273.BroadcastsInDim S64x273x1 (![0, 1] : Fin 2 → Fin S64x273x1.rank)
  inb_S1x273x3000_S1x273x3000_0_0_0 : ∀ a, (![0, 0, 0] : Fin 3 → Nat) a + S1x273x3000.size a ≤ S1x273x3000.size a
  h_S1x273x3000 : 0 < S1x273x3000.numel
  inb_S1x273x1_S1x273x1_0_0_0 : ∀ a, (![0, 0, 0] : Fin 3 → Nat) a + S1x273x1.size a ≤ S1x273x1.size a
  h_S1x273x1 : 0 < S1x273x1.numel
  shapeCasts_S1x273x1_S1x273x1 : S1x273x1.ShapeCasts S1x273x1
  broadcasts_S1x273x1_S1x273x3000 : S1x273x1.Broadcasts S1x273x3000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x273x3000.size a ≤ S64x273x3000.size a
  hwx0_0 : ∀ i : grid0.Coords, EltTy.bits .f32 = 32 ∨ (Rect.block (s := S64x273x3000) S1x273x3000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x273x1.size a ≤ S64x273x1.size a
  hwx0_1 : ∀ i : grid0.Coords, EltTy.bits .f32 = 32 ∨ (Rect.block (s := S64x273x1) S1x273x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x273x3000.size a ≤ S64x273x3000.size a
  hwx0_2 : ∀ i : grid0.Coords, EltTy.bits .f32 = 32 ∨ (Rect.block (s := S64x273x3000) S1x273x3000.size (cc0_transform_2 i) (hinb0_2 i)).WholeWords (EltTy.packing .f32)

variable [Facts₀]

abbrev win0_0 : Pipeline.Window sig grid0 :=
  Pipeline.Window.ofSpec (Memref.whole main_arg0) S1x273x3000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x273x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x273x3000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x273x3000 : Shape := ⟨3, ![64, 273, 3000]⟩
abbrev S64x273x2 : Shape := ⟨3, ![64, 273, 2]⟩
abbrev S2 : Shape := ⟨1, ![2]⟩
abbrev S100x2 : Shape := ⟨2, ![100, 2]⟩
abbrev S1x1x2 : Shape := ⟨3, ![1, 1, 2]⟩
abbrev S_ : Shape := ⟨0, ![]⟩
abbrev S64x273 : Shape := ⟨2, ![64, 273]⟩
abbrev S64x273x1 : Shape := ⟨3, ![64, 273, 1]⟩
abbrev S1x64x273x2 : Shape := ⟨4, ![1, 64, 273, 2]⟩
abbrev S100x1x1x2 : Shape := ⟨4, ![100, 1, 1, 2]⟩
abbrev S100x64x273x2 : Shape := ⟨4, ![100, 64, 273, 2]⟩
abbrev S100x64x273 : Shape := ⟨3, ![100, 64, 273]⟩

abbrev nBuf : Space → Nat
  | .hbm => 42
  | .vmem => 0
  | .smem => 0
  | _ => 0

abbrev bufTy : (tb : Table) → Fin (tcTables nBuf tb) → BufTy
  | .hbm, ⟨0, _⟩ => ⟨S64x273x3000, .f32⟩
  | .hbm, ⟨1, _⟩ => ⟨S64x273x2, .f32⟩
  | .hbm, ⟨2, _⟩ => ⟨S2, .f32⟩
  | .hbm, ⟨3, _⟩ => ⟨S100x2, .f32⟩
  | .hbm, ⟨4, _⟩ => ⟨S1x1x2, .f32⟩
  | .hbm, ⟨5, _⟩ => ⟨S64x273x2, .f32⟩
  | .hbm, ⟨6, _⟩ => ⟨S64x273x2, .f32⟩
  | .hbm, ⟨7, _⟩ => ⟨S64x273x2, .f32⟩
  | .hbm, ⟨8, _⟩ => ⟨S_, .f32⟩
  | .hbm, ⟨9, _⟩ => ⟨S64x273, .f32⟩
  | .hbm, ⟨10, _⟩ => ⟨S64x273, .f32⟩
  | .hbm, ⟨11, _⟩ => ⟨S_, .f32⟩
  | .hbm, ⟨12, _⟩ => ⟨S64x273, .f32⟩
  | .hbm, ⟨13, _⟩ => ⟨S64x273, .i1⟩
  | .hbm, ⟨14, _⟩ => ⟨S64x273x1, .i1⟩
  | .hbm, ⟨15, _⟩ => ⟨S64x273x1, .f32⟩
  | .hbm, ⟨16, _⟩ => ⟨S64x273x3000, .f32⟩
  | .hbm, ⟨17, _⟩ => ⟨S64x273x3000, .f32⟩
  | .hbm, ⟨18, _⟩ => ⟨S1x64x273x2, .f32⟩
  | .hbm, ⟨19, _⟩ => ⟨S100x1x1x2, .f32⟩
  | .hbm, ⟨20, _⟩ => ⟨S100x64x273x2, .f32⟩
  | .hbm, ⟨21, _⟩ => ⟨S100x64x273x2, .f32⟩
  | .hbm, ⟨22, _⟩ => ⟨S100x64x273x2, .f32⟩
  | .hbm, ⟨23, _⟩ => ⟨S100x64x273x2, .f32⟩
  | .hbm, ⟨24, _⟩ => ⟨S_, .f32⟩
  | .hbm, ⟨25, _⟩ => ⟨S100x64x273, .f32⟩
  | .hbm, ⟨26, _⟩ => ⟨S100x64x273, .f32⟩
  | .hbm, ⟨27, _⟩ => ⟨S_, .f32⟩
  | .hbm, ⟨28, _⟩ => ⟨S100x64x273, .f32⟩
  | .hbm, ⟨29, _⟩ => ⟨S100x64x273, .i1⟩
  | .hbm, ⟨30, _⟩ => ⟨S100x64x273, .f32⟩
  | .hbm, ⟨31, _⟩ => ⟨S_, .f32⟩
  | .hbm, ⟨32, _⟩ => ⟨S64x273, .f32⟩
  | .hbm, ⟨33, _⟩ => ⟨S_, .f32⟩
  | .hbm, ⟨34, _⟩ => ⟨S64x273, .f32⟩
  | .hbm, ⟨35, _⟩ => ⟨S64x273, .f32⟩
  | .hbm, ⟨36, _⟩ => ⟨S64x273x1, .f32⟩
  | .hbm, ⟨37, _⟩ => ⟨S_, .f32⟩
  | .hbm, ⟨38, _⟩ => ⟨S64x273x1, .f32⟩
  | .hbm, ⟨39, _⟩ => ⟨S64x273x1, .f32⟩
  | .hbm, ⟨40, _⟩ => ⟨S64x273x3000, .f32⟩
  | .hbm, ⟨41, _⟩ => ⟨S64x273x3000, .f32⟩
  | _, _ => ⟨S64x273x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  bcast_S2_S1x1x2_2 : S2.BroadcastsInDim S1x1x2 (![2] : Fin 1 → Fin S1x1x2.rank)
  bcast_S1x1x2_S64x273x2_0_1_2 : S1x1x2.BroadcastsInDim S64x273x2 (![0, 1, 2] : Fin 3 → Fin S64x273x2.rank)
  reducesTo_S64x273x2_S64x273_d2 : S64x273x2.ReducesTo [2] S64x273
  h_S_ : 0 < S_.numel
  bcast_S_S64x273 : S_.BroadcastsInDim S64x273 (![] : Fin 0 → Fin S64x273.rank)
  bcast_S64x273_S64x273x1_0_1 : S64x273.BroadcastsInDim S64x273x1 (![0, 1] : Fin 2 → Fin S64x273x1.rank)
  bcast_S64x273x1_S64x273x3000_0_1_2 : S64x273x1.BroadcastsInDim S64x273x3000 (![0, 1, 2] : Fin 3 → Fin S64x273x3000.rank)
  bcast_S64x273x2_S1x64x273x2_1_2_3 : S64x273x2.BroadcastsInDim S1x64x273x2 (![1, 2, 3] : Fin 3 → Fin S1x64x273x2.rank)
  bcast_S100x2_S100x1x1x2_0_3 : S100x2.BroadcastsInDim S100x1x1x2 (![0, 3] : Fin 2 → Fin S100x1x1x2.rank)
  bcast_S1x64x273x2_S100x64x273x2_0_1_2_3 : S1x64x273x2.BroadcastsInDim S100x64x273x2 (![0, 1, 2, 3] : Fin 4 → Fin S100x64x273x2.rank)
  bcast_S100x1x1x2_S100x64x273x2_0_1_2_3 : S100x1x1x2.BroadcastsInDim S100x64x273x2 (![0, 1, 2, 3] : Fin 4 → Fin S100x64x273x2.rank)
  reducesTo_S100x64x273x2_S100x64x273_d3 : S100x64x273x2.ReducesTo [3] S100x64x273
  bcast_S_S100x64x273 : S_.BroadcastsInDim S100x64x273 (![] : Fin 0 → Fin S100x64x273.rank)
  reducesTo_S100x64x273_S64x273_d0 : S100x64x273.ReducesTo [0] S64x273
  bcast_S_S64x273x1 : S_.BroadcastsInDim S64x273x1 (![] : Fin 0 → Fin S64x273x1.rank)

variable [Facts₀]

class Facts : Prop extends Facts₀ where

variable [Facts]
-- ==== Proof.ScaleLaw.lean ====
/-
  The one algebraic law that joins the two programs, and what it needs of the denominator.

  Both programs rescale a signal entry `x` by a keep flag `k` over a denominator `d`: one computes
  `x · (k / d)`, the other `(x · k) / d`. On the extended reals the quotient by a nonzero `d` is the product with
  `d⁻¹`, so off `d = 0` the two are one product read with two bracketings: associativity, valid at the
  infinities too, so no finiteness of `x` is used. The denominator is `ε + s / 100` with `ε` a positive
  literal and `s` a sum of flags converted from single bits — each `0` or `1`, a nonnegative real whatever
  the inputs were — so `d` is positive and in particular not zero.
-/
import Idealize.ShloMosaic.PureOps.Ideal

noncomputable section

namespace Cert.ScaleLaw

open Idealize.ShloMosaic

/-- Scaling by a quotient is the quotient of the scaled numerator, off a zero denominator: both sides are
    `x · k · d⁻¹`. -/
theorem mul_div (x k d : EReal) (hd : d ≠ 0) : x * Ideal.div k d = Ideal.div (x * k) d := by
  simp only [Ideal.div, if_neg hd, mul_assoc]

/-- The pattern of `+0.0` denotes `0`. -/
theorem ofBits_zero : Ideal.ofBits .f32 0x00000000#32 = 0 := by
  simp [Ideal.ofBits, Ideal.ieee]

/-- The pattern of `100.0` denotes the real `100`. -/
theorem ofBits_hundred : Ideal.ofBits .f32 0x42C80000#32 = ((100 : ℝ) : EReal) := by
  simp [Ideal.ofBits, Ideal.ieee, -EReal.coe_mul]; norm_num

/-- The small literal added to the denominator (the f32 nearest `1e-8`) denotes a positive real. -/
theorem ofBits_eps_pos : (0 : EReal) < Ideal.ofBits .f32 0x322BCC77#32 := by
  simp [Ideal.ofBits, Ideal.ieee, -EReal.coe_mul]

/-- A bit converted to a float is the real `0` or `1`: never negative. -/
theorem uitofp_nonneg {w : Nat} (b : BitVec w) : (0 : EReal) ≤ FloatOps.uitofp (F := Ideal) .f32 b := by
  show (0 : EReal) ≤ ((b.toNat : ℝ) : EReal)
  exact_mod_cast Nat.cast_nonneg (α := ℝ) b.toNat

/-- The denominator `ε + (0 + Σ flags) / 100` is not zero: the sum of converted bits is nonnegative, its
    hundredth too, and `ε` is positive. -/
theorem denom_ne_zero {ι : Type} [Fintype ι] {w : Nat} (b : ι → BitVec w) :
    Ideal.ofBits .f32 0x322BCC77#32
      + Ideal.div (Ideal.ofBits .f32 0x00000000#32 + ∑ k : ι, FloatOps.uitofp (F := Ideal) .f32 (b k))
          (Ideal.ofBits .f32 0x42C80000#32) ≠ 0 := by
  have hs : (0 : EReal) ≤ ∑ k : ι, FloatOps.uitofp (F := Ideal) .f32 (b k) :=
    Finset.sum_nonneg fun k _ => uitofp_nonneg (b k)
  rw [ofBits_zero, zero_add, ofBits_hundred, Ideal.div_coe (by norm_num)]
  have hp : (0 : EReal) ≤ (∑ k : ι, FloatOps.uitofp (F := Ideal) .f32 (b k)) * ((1 / 100 : ℝ) : EReal) :=
    mul_nonneg hs (by exact_mod_cast (by norm_num : (0 : ℝ) ≤ 1 / 100))
  exact (add_pos_of_pos_of_nonneg ofBits_eps_pos hp).ne'

end Cert.ScaleLaw

end
-- ==== Proof.KernelRescale.lean ====
/-
  What the rescaling kernel leaves in its result array, as one function of the argument arrays.

  The kernel walks the 64 batch rows; at row `b` it loads the row's block of the signal, `[1, 273, 3000]`, and the
  row's column of scales, `[1, 273, 1]`, spreads the column along the time axis and multiplies. So entry
  `(b, c, t)` of the result is the signal's entry `(b, c, t)` times the scale column's entry `(b, c, 0)`:
  `rescaled`. The scale column itself is what the host operations before the kernel leave in its buffer:
  the keep flag of channel `(b, c)` (its distance from the centre exceeds the radius) over
  `ε + (the fraction of the 100 trial centres it is farther than the radius from)`: `scaleCol`.

  Each grid point's written block is the block of `rescaled` at that row (`flushed_eq`): the three windows
  sit at the same row, the signal's and the result's blocks are the same rectangle, and the scale's block is
  that rectangle's column at time `0`. The 64 row blocks tile the array (`cover`), so the array after the
  run is `rescaled` everywhere (`final`, `run`).
-/
import proofs.«157693_j5626407158062_1_alg».proof.Proof.Gen.KernelIdeal.Value
import Idealize.ShloMosaic.Lib.Pipeline.Value
import Idealize.ShloMosaic.Lib.StableHlo.Run

noncomputable section

namespace Cert.KernelIdeal.Rescale

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

/-! ## The scale column, as the host operations compute it -/

/-- Channel `(b, c)` is kept when the Euclidean distance of its position from the centre exceeds the radius. -/
def keepBits (x1 : (⟨S64x273x2, .f32⟩ : BufTy).Contents (Elt F)) (x2 : (⟨S2, .f32⟩ : BufTy).Contents (Elt F)) :
    (⟨S64x273, .i1⟩ : BufTy).Contents (Elt F) :=
  cmpf .ogt (Host.sqrt (Host.reduceAdd (mulf (subf x1 (broadcastInDim S64x273x2 ![0, 1, 2] bcast_S1x1x2_S64x273x2_0_1_2 (broadcastInDim S1x1x2 ![2] bcast_S2_S1x1x2_2 x2))) (subf x1 (broadcastInDim S64x273x2 ![0, 1, 2] bcast_S1x1x2_S64x273x2_0_1_2 (broadcastInDim S1x1x2 ![2] bcast_S2_S1x1x2_2 x2)))) (constant S_ .f32 0x00000000#32) reducesTo_S64x273x2_S64x273_d2 h_S_)) (broadcastInDim S64x273 ![] bcast_S_S64x273 (constant S_ .f32 0x3E4CCCCD#32))

/-- The same test against each of the 100 trial centres: entry `(n, b, c)`. -/
def trialBits (x1 : (⟨S64x273x2, .f32⟩ : BufTy).Contents (Elt F)) (x3 : (⟨S100x2, .f32⟩ : BufTy).Contents (Elt F)) :
    (⟨S100x64x273, .i1⟩ : BufTy).Contents (Elt F) :=
  cmpf .ogt (Host.sqrt (Host.reduceAdd (mulf (subf (broadcastInDim S100x64x273x2 ![0, 1, 2, 3] bcast_S1x64x273x2_S100x64x273x2_0_1_2_3 (broadcastInDim S1x64x273x2 ![1, 2, 3] bcast_S64x273x2_S1x64x273x2_1_2_3 x1)) (broadcastInDim S100x64x273x2 ![0, 1, 2, 3] bcast_S100x1x1x2_S100x64x273x2_0_1_2_3 (broadcastInDim S100x1x1x2 ![0, 3] bcast_S100x2_S100x1x1x2_0_3 x3))) (subf (broadcastInDim S100x64x273x2 ![0, 1, 2, 3] bcast_S1x64x273x2_S100x64x273x2_0_1_2_3 (broadcastInDim S1x64x273x2 ![1, 2, 3] bcast_S64x273x2_S1x64x273x2_1_2_3 x1)) (broadcastInDim S100x64x273x2 ![0, 1, 2, 3] bcast_S100x1x1x2_S100x64x273x2_0_1_2_3 (broadcastInDim S100x1x1x2 ![0, 3] bcast_S100x2_S100x1x1x2_0_3 x3)))) (constant S_ .f32 0x00000000#32) reducesTo_S100x64x273x2_S100x64x273_d3 h_S_)) (broadcastInDim S100x64x273 ![] bcast_S_S100x64x273 (constant S_ .f32 0x3E4CCCCD#32))

/-- The fraction of the trial centres that keep channel `(b, c)`: the flags summed over the trials, over 100. -/
def keepFrac (x1 : (⟨S64x273x2, .f32⟩ : BufTy).Contents (Elt F)) (x3 : (⟨S100x2, .f32⟩ : BufTy).Contents (Elt F)) :
    (⟨S64x273, .f32⟩ : BufTy).Contents (Elt F) :=
  Host.divf (Host.reduceAdd (uitofp .f32 (trialBits x1 x3)) (constant S_ .f32 0x00000000#32) reducesTo_S100x64x273_S64x273_d0 h_S_) (broadcastInDim S64x273 ![] bcast_S_S64x273 (constant S_ .f32 0x42C80000#32))

/-- The scale of channel `(b, c)`, as a column `[64, 273, 1]`: the keep flag over `ε` plus the kept fraction. -/
def scaleCol (x1 : (⟨S64x273x2, .f32⟩ : BufTy).Contents (Elt F)) (x2 : (⟨S2, .f32⟩ : BufTy).Contents (Elt F))
    (x3 : (⟨S100x2, .f32⟩ : BufTy).Contents (Elt F)) : (⟨S64x273x1, .f32⟩ : BufTy).Contents (Elt F) :=
  broadcastInDim S64x273x1 ![0, 1] bcast_S64x273_S64x273x1_0_1 (Host.divf (uitofp .f32 (keepBits x1 x2)) (addf (broadcastInDim S64x273 ![] bcast_S_S64x273 (constant S_ .f32 0x322BCC77#32)) (keepFrac x1 x3)))

/-! ## The result array as one function -/

/-- The column entry `(b, c, 0)` that scales the array entry `(b, c, t)`. -/
abbrev col (i : S64x273x3000.Idx) : S64x273x1.Idx := fun a => match a with
  | ⟨0, _⟩ => ⟨(i 0).val, (i 0).isLt⟩
  | ⟨1, _⟩ => ⟨(i 1).val, (i 1).isLt⟩
  | ⟨2, _⟩ => ⟨0, Nat.one_pos⟩

/-- The channel `(b, c)` of the array entry `(b, c, t)`. -/
abbrev chan (i : S64x273x3000.Idx) : S64x273.Idx := fun a => match a with
  | ⟨0, _⟩ => ⟨(i 0).val, (i 0).isLt⟩
  | ⟨1, _⟩ => ⟨(i 1).val, (i 1).isLt⟩

/-- The scale column read at an entry's column: the entry's channel's keep flag over `ε` plus its kept fraction. -/
theorem scaleCol_apply (x1 : (⟨S64x273x2, .f32⟩ : BufTy).Contents (Elt F)) (x2 : (⟨S2, .f32⟩ : BufTy).Contents (Elt F))
    (x3 : (⟨S100x2, .f32⟩ : BufTy).Contents (Elt F)) (i : S64x273x3000.Idx) :
    scaleCol x1 x2 x3 (col i)
      = FloatOps.hostDivf (FloatOps.uitofp .f32 (keepBits x1 x2 (chan i)))
          (FloatOps.addf (FloatOps.ofBits .f32 0x322BCC77#32) (keepFrac x1 x3 (chan i))) := by
  unfold scaleCol
  generalize keepBits x1 x2 = kb
  generalize keepFrac x1 x3 = pf
  refine (broadcastInDim_apply _ bcast_S64x273_S64x273x1_0_1 _ (col i) (chan i) (fun a => match a with
    | ⟨0, _⟩ => by show (i 0).val = if (64 : Nat) = 1 then 0 else (i 0).val; rw [if_neg (by decide)]
    | ⟨1, _⟩ => by show (i 1).val = if (273 : Nat) = 1 then 0 else (i 1).val; rw [if_neg (by decide)])).trans ?_
  show FloatOps.hostDivf (FloatOps.uitofp .f32 (kb (chan i)))
      (FloatOps.addf (broadcastInDim S64x273 ![] bcast_S_S64x273 (constant S_ .f32 0x322BCC77#32 : (⟨S_, .f32⟩ : BufTy).Contents (Elt F)) (chan i)) (pf (chan i))) = _
  rw [broadcastInDim_apply _ bcast_S_S64x273 (constant S_ .f32 0x322BCC77#32 : (⟨S_, .f32⟩ : BufTy).Contents (Elt F)) (chan i)
    (fun a => a.elim0) (fun a => a.elim0)]
  rfl

/-- Every entry of the signal times its channel's scale. -/
abbrev rescaled (x : S64x273x3000.Idx → Elt F .f32) (s : S64x273x1.Idx → Elt F .f32) : S64x273x3000.Idx → Elt F .f32 :=
  fun i => FloatOps.mulf (x i) (s (col i))

variable (m : (ℓ : Loc nD τ sig) → Buf (Elt F) ℓ) (ρ : Dev nD → PrngReg)

set_option maxHeartbeats 2000000 in
/-- When the kernel is launched, the scale buffer holds `scaleCol` of the argument arrays. -/
theorem scale_at_entry (c : Dev nD) :
    (V m c main_v22 : S64x273x1.Idx → Elt F .f32)
      = scaleCol (m ((c : Thread nD τ).loc main_arg1)) (m ((c : Thread nD τ).loc main_arg2)) (m ((c : Thread nD τ).loc main_arg3)) := by
  unfold scaleCol keepFrac trialBits keepBits
  dsimp only [Gen.V]
  simp only [hostOps0, hostOps0_1, hostOps0_2, hostOps0_3, hostOps0_4, List.flatten_cons, List.flatten_nil, List.append_nil,
    List.cons_append, List.nil_append]
  after_results_simp <;> rfl

/-! ## One grid point -/

theorem hz : (![0, 0, 0] : Fin 3 → Nat) = fun _ => 0 := funext fun a => by fin_cases a <;> rfl

/-- The body's product at an index of the block: the signal block's entry there times the scale block's entry
    in the same channel row. -/
theorem pay_apply (P0 : Vec F S1x273x3000 .f32) (P1 : Vec F S1x273x1 .f32) (y : S1x273x3000.Idx) :
    k0_pay1 P0 P1 y = FloatOps.mulf (P0 y) (P1 (Value.ix2_1 y)) := by
  have hy0 : (y 0).val < 1 := (y 0).isLt
  have hy1 : (y 1).val < 273 := (y 1).isLt
  have hy2 : (y 2).val < 3000 := (y 2).isLt
  refine (Value.piece2_0 P0 P1 y).trans ?_
  show FloatOps.mulf (P0 (Value.ix2_0 (r0_0.idx y))) (P1 (Value.ix2_1 (r0_0.idx y))) = _
  have e0 : Value.ix2_0 (r0_0.idx y) = y := by
    funext a; apply Fin.ext
    match a with
    | ⟨0, _⟩ => show 0 = (y 0).val; omega
    | ⟨1, _⟩ => show 0 + 1 * (y 1).val = (y 1).val; omega
    | ⟨2, _⟩ => show 0 + 1 * (y 2).val = (y 2).val; omega
  have e1 : Value.ix2_1 (r0_0.idx y) = Value.ix2_1 y := by
    funext a; apply Fin.ext
    match a with
    | ⟨0, _⟩ => rfl
    | ⟨1, _⟩ => show 0 + 1 * (y 1).val = (y 1).val; omega
    | ⟨2, _⟩ => rfl
  rw [e0, e1]

/-- The three windows' index maps over the grid: all at the row of the point, at channel block and time
    block `0`. -/
theorem idx_facts : ∀ t : Fin cfg0.N,
    win0_0.index t (0 : Fin 3) = win0_2.index t (0 : Fin 3)
    ∧ win0_0.index t (1 : Fin 3) = 0 ∧ win0_0.index t (2 : Fin 3) = 0
    ∧ win0_1.index t (0 : Fin 3) = win0_2.index t (0 : Fin 3)
    ∧ win0_1.index t (1 : Fin 3) = 0 ∧ win0_1.index t (2 : Fin 3) = 0
    ∧ win0_2.index t (1 : Fin 3) = 0 ∧ win0_2.index t (2 : Fin 3) = 0 :=
  (by decide +kernel : ∀ t : Fin grid0.N, _)

/-- Every batch row is some grid point's. -/
theorem idx_onto : ∀ q : Fin 64, ∃ t : Fin cfg0.N, win0_2.index t = ![q.val, 0, 0] :=
  (by decide +kernel : ∀ q : Fin 64, ∃ t : Fin grid0.N, win0_2.index t = ![q.val, 0, 0])

/-- What point `t` writes back is the block of `rescaled` at its row. -/
theorem flushed_eq (c : Dev nD) (t : Fin cfg0.N) :
    (dats m 0 c).flushed 2 t
      = ((cfg0.win 2).blk t).view.read (Elt F) (rescaled (V m c main_arg0) (V m c main_v22)) := by
  rw [Value.flushed2]
  unfold out0_2
  rw [View.canon_unit_zero hz]
  simp only [View.ld_unit_zero (S := S1x273x3000) hz, View.ld_unit_zero (S := S1x273x1) hz]
  obtain ⟨e00, e01, e02, e10, e11, e12, e21, e22⟩ := idx_facts t
  funext y
  have hy0 : (y 0).val < 1 := (y 0).isLt
  have hy1 : (y 1).val < 273 := (y 1).isLt
  have hy2 : (y 2).val < 3000 := (y 2).isLt
  show k0_pay1 (iblk m c 0 t) (iblk m c 1 t) y
    = FloatOps.mulf (V m c main_arg0 (((cfg0.win 2).blk t).view.emb y)) (V m c main_v22 (col (((cfg0.win 2).blk t).view.emb y)))
  refine (pay_apply (iblk m c 0 t) (iblk m c 1 t) y).trans ?_
  show FloatOps.mulf (V m c main_arg0 (((cfg0.win 0).blk t).view.emb y)) (V m c main_v22 (((cfg0.win 1).blk t).view.emb (Value.ix2_1 y))) = _
  have h0 : ((cfg0.win 0).blk t).view.emb y = ((cfg0.win 2).blk t).view.emb y := by
    funext a; apply Fin.ext
    match a with
    | ⟨0, _⟩ => show win0_0.index t (0 : Fin 3) * 1 + 1 * (y 0).val = win0_2.index t (0 : Fin 3) * 1 + 1 * (y 0).val; omega
    | ⟨1, _⟩ => show win0_0.index t (1 : Fin 3) * 273 + 1 * (y 1).val = win0_2.index t (1 : Fin 3) * 273 + 1 * (y 1).val; omega
    | ⟨2, _⟩ => show win0_0.index t (2 : Fin 3) * 3000 + 1 * (y 2).val = win0_2.index t (2 : Fin 3) * 3000 + 1 * (y 2).val; omega
  have h1 : ((cfg0.win 1).blk t).view.emb (Value.ix2_1 y) = col (((cfg0.win 2).blk t).view.emb y) := by
    funext a; apply Fin.ext
    match a with
    | ⟨0, _⟩ => show win0_1.index t (0 : Fin 3) * 1 + 1 * 0 = win0_2.index t (0 : Fin 3) * 1 + 1 * (y 0).val; omega
    | ⟨1, _⟩ => show win0_1.index t (1 : Fin 3) * 273 + 1 * (y 1).val = win0_2.index t (1 : Fin 3) * 273 + 1 * (y 1).val; omega
    | ⟨2, _⟩ => show win0_1.index t (2 : Fin 3) * 1 + 1 * 0 = 0; omega
  rw [h0, h1]

/-! ## The whole array -/

/-- An index of the array is in point `t`'s block iff each coordinate is in the block's range on its axis. -/
theorem mem_blk (t : Fin cfg0.N) (i : S64x273x3000.Idx) :
    i ∈ ((cfg0.win 2).blk t).view.set ↔ ∀ a : Fin 3, win0_2.index t a * S1x273x3000.size a ≤ (i a).val ∧ (i a).val < win0_2.index t a * S1x273x3000.size a + S1x273x3000.size a := by
  show i ∈ ((View.whole main_v23).slice (win0_2.rect t)).set ↔ _
  rw [View.set_slice_whole, Rect.mem_set_unit]
  exact Iff.rfl

/-- The row blocks tile the array: entry `(b, c, t)` is in the block of the point at row `b`. -/
theorem cover (i : S64x273x3000.Idx) :
    ∃ t : Fin cfg0.N, (cfg0.win 2).flush t = true ∧ i ∈ ((cfg0.win 2).blk t).view.set := by
  have hi0 : (i 0).val < 64 := (i 0).isLt
  have hi1 : (i 1).val < 273 := (i 1).isLt
  have hi2 : (i 2).val < 3000 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 273 ≤ (i 1).val ∧ (i 1).val < win0_2.index t (1 : Fin 3) * 273 + 273; omega
  | ⟨2, _⟩ => show win0_2.index t (2 : Fin 3) * 3000 ≤ (i 2).val ∧ (i 2).val < win0_2.index t (2 : Fin 3) * 3000 + 3000; omega

/-- The result array after the run: the signal rescaled, channel by channel, by `scaleCol` of the arguments. -/
theorem final (c : Dev nD) :
    (dats m 0 c).arrAt 2 cfg0.N
      = rescaled (m ((c : Thread nD τ).loc main_arg0))
          (scaleCol (m ((c : Thread nD τ).loc main_arg1)) (m ((c : Thread nD τ).loc main_arg2)) (m ((c : Thread nD τ).loc main_arg3))) := by
  refine ((dats m 0 c).arrAt_eq_of_cover 2 (rescaled (V m c main_arg0) (V m c main_v22))
    (fun t _ => flushed_eq m c t) cover).trans ?_
  rw [V_main_arg0 m c, scale_at_entry m c]

/-- The kernel's run with its result array named: `rescaled` of the arguments, the arguments unchanged. -/
theorem run : θ_run defs (onTc (τ := τ) (main (F := F))) ⟨m, fun _ => 0, ρ⟩ fun r => ∀ c : Dev nD,
      r.2.mem ((c : Thread nD τ).loc main_v23)
        = rescaled (m ((c : Thread nD τ).loc main_arg0))
            (scaleCol (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Rescale

end
-- ==== Proof.Bridge.lean ====
/-
  The reference's result is the kernel's function of the arguments.

  Entry `(b, c, t)` of the reference is `(x · k) / d`: the signal entry `x` times the keep flag `k` of channel
  `(b, c)`, over `d = ε + (the kept fraction of the 100 trials at that channel)`; the flag and the denominator
  are spread from the channel to every time `t`. The kernel's array holds `x · (k / d)` there, with the
  same flag and the same fraction: the host operations that compute them are, operation for operation, the
  reference's (`keepBits_eq`, `keepFrac_eq`). The denominator is not zero (`denom_ne_zero`: the fraction is a sum of
  converted bits over 100, so nonnegative, and `ε` is positive), and off a zero denominator the two
  bracketings are one product (`Cert.ScaleLaw.mul_div`).
-/
import proofs.«157693_j5626407158062_1_alg».proof.Proof.KernelRescale
import proofs.«157693_j5626407158062_1_alg».proof.Proof.Gen.ReferenceIdeal.Read
import proofs.«157693_j5626407158062_1_alg».proof.Proof.ScaleLaw

noncomputable section

namespace Cert.Bridge

open Idealize.ShloMosaic Idealize.ShloMosaic.TcCoe
open Cert.ReferenceIdeal Cert.ReferenceIdeal.Gen
open Cert.KernelIdeal.Rescale (keepBits trialBits keepFrac scaleCol rescaled col chan scaleCol_apply)

/-- The kernel's keep flags are the reference's comparison stage: the same operations of the same arguments. -/
theorem keepBits_eq (x1 : (⟨S64x273x2, .f32⟩ : BufTy).Contents (Elt Ideal)) (x2 : (⟨S2, .f32⟩ : BufTy).Contents (Elt Ideal)) :
    keepBits (F := Ideal) x1 x2 = Read.val_main_v5 (F := Ideal) x1 x2 := rfl

/-- The kernel's kept fraction is the reference's: the same operations of the same arguments. -/
theorem keepFrac_eq (x1 : (⟨S64x273x2, .f32⟩ : BufTy).Contents (Elt Ideal)) (x3 : (⟨S100x2, .f32⟩ : BufTy).Contents (Elt Ideal)) :
    keepFrac (F := Ideal) x1 x3 = Read.val_main_v21 (F := Ideal) x1 x3 := rfl

/-- The denominator at a channel, `ε` plus the kept fraction, is not zero. -/
theorem denom_ne_zero (x1 : (⟨S64x273x2, .f32⟩ : BufTy).Contents (Elt Ideal)) (x3 : (⟨S100x2, .f32⟩ : BufTy).Contents (Elt Ideal))
    (j : S64x273.Idx) :
    Ideal.ofBits .f32 0x322BCC77#32 + Read.val_main_v21 (F := Ideal) x1 x3 j ≠ 0 := by
  rw [Read.val_main_v21_apply, Read.val_main_v19_apply, Read.val_main_v20_apply, Read.val_main_cst_2_apply,
    Read.val_main_cst_1_apply]
  simp only [Read.val_main_v18_apply]
  exact Cert.ScaleLaw.denom_ne_zero (fun k : Fin 100 => Read.val_main_v17 (F := Ideal) x1 x3 (Read.idx_main_v19 j k))

/-- Index by index, the reference's result is the signal rescaled by the kernel's scale column. -/
theorem reference_eq (x0 : (⟨S64x273x3000, .f32⟩ : BufTy).Contents (Elt Ideal)) (x1 : (⟨S64x273x2, .f32⟩ : BufTy).Contents (Elt Ideal))
    (x2 : (⟨S2, .f32⟩ : BufTy).Contents (Elt Ideal)) (x3 : (⟨S100x2, .f32⟩ : BufTy).Contents (Elt Ideal)) :
    Read.val_main_v26 (F := Ideal) x0 x1 x2 x3 = rescaled (F := Ideal) x0 (scaleCol (F := Ideal) x1 x2 x3) := by
  funext i
  have hj6 : Read.idx_main_v6 (Read.idx_main_v8 i) = chan i :=
    funext fun a => Fin.ext (by match a with | ⟨0, _⟩ => rfl | ⟨1, _⟩ => rfl)
  have hj22 : Read.idx_main_v22 (Read.idx_main_v25 i) = chan i :=
    funext fun a => Fin.ext (by match a with | ⟨0, _⟩ => rfl | ⟨1, _⟩ => rfl)
  show Read.val_main_v26 (F := Ideal) x0 x1 x2 x3 i
    = FloatOps.mulf (F := Ideal) (φ := .f32) (x0 i) (scaleCol (F := Ideal) x1 x2 x3 (col i))
  rw [scaleCol_apply, keepBits_eq, keepFrac_eq]
  rw [Read.val_main_v26_apply, Read.val_main_v9_apply, Read.val_main_v8_apply, Read.val_main_v7_apply, Read.val_main_v6_apply,
    Read.val_main_v25_apply, Read.val_main_v24_apply, Read.val_main_v23_apply, Read.val_main_cst_3_apply, Read.val_main_v22_apply,
    hj6, hj22]
  exact (Cert.ScaleLaw.mul_div _ _ _ (denom_ne_zero x1 x3 (chan i))).symm

end Cert.Bridge

end
-- ==== Proof.lean ====
/-
  The five claims about the channel-rescaling kernel and its jnp reference.

  Both programs compute, per batch row and channel `(b, c)`, a keep flag `k` (the channel's position is
  farther than the radius from the centre) and a denominator `d = ε + p`, where `p` is the fraction of 100 trial
  centres that keep the channel. The kernel forms the scale `k / d` on the host and multiplies every time
  sample of the signal by it; the reference multiplies the signal by `k` first and divides by `d` after. On the
  extended reals, off `d = 0`, both are the product `x · k · d⁻¹` (Proof/ScaleLaw.lean), and `d` is never zero:
  `p` is a sum of bits converted to `0` or `1`, over 100, and `ε` is positive. Nothing here uses that the inputs
  are finite.

  The kernel's result array as one function of the arguments is Proof/KernelRescale.lean (each of the 64 row
  blocks is that function's block, and the blocks tile the array); that the reference's result is the same
  function, index by index, is Proof/Bridge.lean. The two kernel frames and the reference's run are the generated
  ones; no operation of the kernel was rewritten when it was idealized, so `preserves` has nothing to state.
-/
import proofs.«157693_j5626407158062_1_alg».proof.Defs
import proofs.«157693_j5626407158062_1_alg».proof.Proof.Gen.Kernel
import proofs.«157693_j5626407158062_1_alg».proof.Proof.Gen.Kernel.Skeleton
import proofs.«157693_j5626407158062_1_alg».proof.Proof.Gen.Kernel.Launch
import proofs.«157693_j5626407158062_1_alg».proof.Proof.Gen.Kernel.Points
import proofs.«157693_j5626407158062_1_alg».proof.Proof.Gen.Kernel.Frame
import proofs.«157693_j5626407158062_1_alg».proof.Proof.Gen.KernelIdeal
import proofs.«157693_j5626407158062_1_alg».proof.Proof.Gen.KernelIdeal.Skeleton
import proofs.«157693_j5626407158062_1_alg».proof.Proof.Gen.KernelIdeal.Launch
import proofs.«157693_j5626407158062_1_alg».proof.Proof.Gen.KernelIdeal.Points
import proofs.«157693_j5626407158062_1_alg».proof.Proof.Gen.KernelIdeal.Frame
import proofs.«157693_j5626407158062_1_alg».proof.Proof.Gen.ReferenceIdeal
import proofs.«157693_j5626407158062_1_alg».proof.Proof.Gen.Pre_finite_inputs
import proofs.«157693_j5626407158062_1_alg».proof.Proof.Gen.KernelIdeal.Value
import proofs.«157693_j5626407158062_1_alg».proof.Proof.Gen.ReferenceIdeal.Run
import proofs.«157693_j5626407158062_1_alg».proof.Proof.Gen.ReferenceIdeal.Read
import proofs.«157693_j5626407158062_1_alg».proof.Proof.ScaleLaw
import proofs.«157693_j5626407158062_1_alg».proof.Proof.KernelRescale
import proofs.«157693_j5626407158062_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's are one array:
    the signal rescaled, channel by channel, by the keep flag over `ε` plus the kept fraction. -/
theorem algebraic : Cert.algebraic_KernelIdeal_ReferenceIdeal := by
  intro m ρ m' ρ' _ hagree
  refine ⟨_, Cert.KernelIdeal.Rescale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v26_eq]
  exact Cert.Bridge.reference_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
